-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S1024x2048 : Shape := ⟨2, ![1024, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel

variable [Facts]

def fn {F : FTy → Type} [FloatOps F] (main_arg0 : IVec S1024x2048 32) : IVec S_ 1 :=
  let main_c : IVec S_ 32 := constantI S_ 32 0#32
  let main_v0 : IVec S1024x2048 32 := broadcastInDim S1024x2048 ![] bcast_S_S1024x2048 main_c
  let main_v1 : IVec S1024x2048 1 := cmpi .sge main_arg0 main_v0
  let main_c_0 : IVec S_ 32 := constantI S_ 32 32128#32
  let main_v2 : IVec S1024x2048 32 := broadcastInDim S1024x2048 ![] bcast_S_S1024x2048 main_c_0
  let main_v3 : IVec S1024x2048 1 := cmpi .slt main_arg0 main_v2
  let main_v4 : IVec S1024x2048 1 := andi main_v1 main_v3
  let main_c_1 : IVec S_ 1 := constantI S_ 1 1#1
  let main_v5 : IVec S_ 1 := (fun x v => Host.reduce IntOp.andi x v reducesTo_S1024x2048_S_d0_1 h_S_) main_v4 main_c_1
  main_v5
-- ==== Kernel.lean ====
abbrev S1024x2048 : Shape := ⟨2, ![1024, 2048]⟩
abbrev S1024x251x128 : Shape := ⟨3, ![1024, 251, 128]⟩
abbrev S64x128 : Shape := ⟨2, ![64, 128]⟩
abbrev S64x251x128 : Shape := ⟨3, ![64, 251, 128]⟩
abbrev S64x128x1 : Shape := ⟨3, ![64, 128, 1]⟩
abbrev S1x1x251 : Shape := ⟨3, ![1, 1, 251]⟩
abbrev S1x1x128 : Shape := ⟨3, ![1, 1, 128]⟩
abbrev S64x128x251 : Shape := ⟨3, ![64, 128, 251]⟩
abbrev S64x128x128 : Shape := ⟨3, ![64, 128, 128]⟩
abbrev S1024x32128 : Shape := ⟨2, ![1024, 32128]⟩

abbrev nBuf : Space → Nat
  | .hbm => 3
  | .vmem => 4
  | .smem => 0
  | _ => 0

abbrev bufTy : (tb : Table) → Fin (tcTables nBuf tb) → BufTy
  | .hbm, ⟨0, _⟩ => ⟨S1024x2048, .i32⟩
  | .hbm, ⟨1, _⟩ => ⟨S1024x251x128, .f32⟩
  | .hbm, ⟨2, _⟩ => ⟨S1024x32128, .f32⟩
  | .local _ .vmem, ⟨0, _⟩ => ⟨S64x128, .i32⟩
  | .local _ .vmem, ⟨1, _⟩ => ⟨S64x128, .i32⟩
  | .local _ .vmem, ⟨2, _⟩ => ⟨S64x251x128, .f32⟩
  | .local _ .vmem, ⟨3, _⟩ => ⟨S64x251x128, .f32⟩
  | _, _ => ⟨S1024x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x251x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S64x251x128_S64x251x128_0_0_0 : ∀ a, (![0, 0, 0] : Fin 3 → Nat) a + S64x251x128.size a ≤ S64x251x128.size a
  h_S64x251x128 : 0 < S64x251x128.numel
  inb_S64x128_S64x128_0_0 : ∀ a, (![0, 0] : Fin 2 → Nat) a + S64x128.size a ≤ S64x128.size a
  h_S64x128 : 0 < S64x128.numel
  shapeCasts_S64x128_S64x128x1 : S64x128.ShapeCasts S64x128x1
  iota_S1x1x251_d2_w32 : S1x1x251.Iotas .tc 32 [2]
  iota_S1x1x128_d2_w32 : S1x1x128.Iotas .tc 32 [2]
  broadcasts_S64x128x1_S64x128x251 : S64x128x1.Broadcasts S64x128x251
  broadcasts_S1x1x251_S64x128x251 : S1x1x251.Broadcasts S64x128x251
  natLt_1_32 : 1 < 32
  bitsLt_bf16_f32 : FTy.bits .bf16 < FTy.bits .f32
  broadcasts_S64x128x1_S64x128x128 : S64x128x1.Broadcasts S64x128x128
  broadcasts_S1x1x128_S64x128x128 : S1x1x128.Broadcasts S64x128x128
  shapeCasts_S64x251x128_S64x251x128 : S64x251x128.ShapeCasts S64x251x128
  shapeCasts_S1024x251x128_S1024x32128 : S1024x251x128.ShapeCasts S1024x32128
  dot_S64x128x251_S64x128x128_S64x251x128_1_1_2_2_0_0_wf : DotDims.WF S64x128x251 S64x128x128 S64x251x128 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S1024x2048.size a
  hwx0_0 : ∀ i : grid0.Coords, EltTy.bits .i32 = 32 ∨ (Rect.block (s := S1024x2048) S64x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x251x128.size a ≤ S1024x251x128.size a
  hwx0_1 : ∀ i : grid0.Coords, EltTy.bits .f32 = 32 ∨ (Rect.block (s := S1024x251x128) S64x251x128.size (cc0_transform_1 i) (hinb0_1 i)).WholeWords (EltTy.packing .f32)

variable [Facts₀]

def dot_S64x128x251_S64x128x128_S64x251x128_1_1_2_2_0_0 : DotDims S64x128x251 S64x128x128 S64x251x128 where
  lhsContracting := [1]
  rhsContracting := [1]
  lhsNonContracting := [2]
  rhsNonContracting := [2]
  lhsBatch := [0]
  rhsBatch := [0]
  wf := dot_S64x128x251_S64x128x128_S64x251x128_1_1_2_2_0_0_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x251x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S1024 : Shape := ⟨1, ![1024]⟩
abbrev S1024x1 : Shape := ⟨2, ![1024, 1]⟩
abbrev S_ : Shape := ⟨0, ![]⟩
abbrev S1024x32128 : Shape := ⟨2, ![1024, 32128]⟩
abbrev S1024x2048x1 : Shape := ⟨3, ![1024, 2048, 1]⟩
abbrev S1024x2048x2 : Shape := ⟨3, ![1024, 2048, 2]⟩

abbrev nBuf : Space → Nat
  | .hbm => 26
  | .vmem => 0
  | .smem => 0
  | _ => 0

abbrev bufTy : (tb : Table) → Fin (tcTables nBuf tb) → BufTy
  | .hbm, ⟨0, _⟩ => ⟨S1024x2048, .i32⟩
  | .hbm, ⟨1, _⟩ => ⟨S1024, .i32⟩
  | .hbm, ⟨2, _⟩ => ⟨S1024x1, .i32⟩
  | .hbm, ⟨3, _⟩ => ⟨S_, .f32⟩
  | .hbm, ⟨4, _⟩ => ⟨S1024x32128, .f32⟩
  | .hbm, ⟨5, _⟩ => ⟨S_, .i32⟩
  | .hbm, ⟨6, _⟩ => ⟨S1024x1, .i32⟩
  | .hbm, ⟨7, _⟩ => ⟨S1024x1, .i1⟩
  | .hbm, ⟨8, _⟩ => ⟨S_, .i32⟩
  | .hbm, ⟨9, _⟩ => ⟨S1024x1, .i32⟩
  | .hbm, ⟨10, _⟩ => ⟨S1024x1, .i32⟩
  | .hbm, ⟨11, _⟩ => ⟨S1024x1, .i32⟩
  | .hbm, ⟨12, _⟩ => ⟨S_, .i32⟩
  | .hbm, ⟨13, _⟩ => ⟨S1024x2048, .i32⟩
  | .hbm, ⟨14, _⟩ => ⟨S1024x2048, .i1⟩
  | .hbm, ⟨15, _⟩ => ⟨S_, .i32⟩
  | .hbm, ⟨16, _⟩ => ⟨S1024x2048, .i32⟩
  | .hbm, ⟨17, _⟩ => ⟨S1024x2048, .i32⟩
  | .hbm, ⟨18, _⟩ => ⟨S1024x2048, .i32⟩
  | .hbm, ⟨19, _⟩ => ⟨S1024x2048, .i32⟩
  | .hbm, ⟨20, _⟩ => ⟨S1024x2048x1, .i32⟩
  | .hbm, ⟨21, _⟩ => ⟨S1024x2048x1, .i32⟩
  | .hbm, ⟨22, _⟩ => ⟨S1024x2048x2, .i32⟩
  | .hbm, ⟨23, _⟩ => ⟨S_, .f32⟩
  | .hbm, ⟨24, _⟩ => ⟨S1024x2048, .f32⟩
  | .hbm, ⟨25, _⟩ => ⟨S1024x32128, .f32⟩
  | _, _ => ⟨S1024x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S_S1024x32128 : S_.BroadcastsInDim S1024x32128 (![] : Fin 0 → Fin S1024x32128.rank)
  bcast_S_S1024x1 : S_.BroadcastsInDim S1024x1 (![] : Fin 0 → Fin S1024x1.rank)
  bcast_S_S1024x2048 : S_.BroadcastsInDim S1024x2048 (![] : Fin 0 → Fin S1024x2048.rank)
  bcast_S1024x1_S1024x2048_0_1 : S1024x1.BroadcastsInDim S1024x2048 (![0, 1] : Fin 2 → Fin S1024x2048.rank)
  bcast_S1024x2048_S1024x2048x1_0_1 : S1024x2048.BroadcastsInDim S1024x2048x1 (![0, 1] : Fin 2 → Fin S1024x2048x1.rank)
  concatenates_S1024x2048x1_S1024x2048x1_S1024x2048x2_d2 : Shape.Concatenates [S1024x2048x1, S1024x2048x1] S1024x2048x2 2
  scatter_S1024x32128_S1024x2048x2_S1024x2048_n_01_01_2_wf : ScatterDims.WF S1024x32128 S1024x2048x2 S1024x2048 [] [0, 1] [0, 1] 2

variable [Facts₀]

def scatter_S1024x32128_S1024x2048x2_S1024x2048_n_01_01_2 : ScatterDims S1024x32128 S1024x2048x2 S1024x2048 where
  updateWindowDims := []
  insertedWindowDims := [0, 1]
  scatterDimsToOperandDims := [0, 1]
  indexVectorDim := 2
  wf := scatter_S1024x32128_S1024x2048x2_S1024x2048_n_01_01_2_wf

class Facts : Prop extends Facts₀ where

variable [Facts]
-- ==== Proof.HistSpec.lean ====
/-
  The arithmetic of a two-level one-hot histogram, with no program in sight.

  A token id `w` (a 32-bit word, non-negative as a signed number) splits as `w = 128 * (w >> 7) + (w & 127)`, the
  quotient and the remainder of its value by 128. So for a bucket `v = 128 * h + l` with `l < 128`,
  "`w >> 7 = h` and `w & 127 = l`" says exactly "`w = v`": the product of the two one-hot factors is the one-hot
  factor of the whole id. Summed over a row of 2048 ids, sixteen chunks of 128 at a time, the products count the
  ids equal to `v`. For a NEGATIVE `w` the arithmetic shift keeps the sign, `w >> 7` is negative and equals no `h`:
  this is why the count is stated for non-negative ids only.
-/
import Idealize.ShloMosaic.PureOps.Ideal
import Idealize.ShloMosaic.Lib.ValueIdx
import Idealize.ShloMosaic.Lib.StableHlo.Predicate

open scoped BigOperators

noncomputable section

namespace Cert.Hist

open Idealize.ShloMosaic Idealize.ShloMosaic.ValueIdx

/-! ## One one-hot factor -/

/-- The factor as the kernel computes it: the test `a = b` as one bit, widened to a word, converted to a real. -/
def hot (a b : BitVec 32) : EReal := ((((IntOp.cmpi .eq a b).setWidth 32).toInt : ℝ) : EReal)

theorem cmpi_eq_one {a b : BitVec 32} (h : a = b) : IntOp.cmpi .eq a b = 1#1 := by
  subst h; simp [IntOp.cmpi]

theorem cmpi_eq_zero {a b : BitVec 32} (h : a ≠ b) : IntOp.cmpi .eq a b = 0#1 := by
  have e : (a == b) = false := beq_eq_false_iff_ne.mpr h
  show BitVec.ofBool (a == b) = 0#1
  rw [e]; rfl

/-- It is 1 where the words agree and 0 elsewhere. -/
theorem hot_eq (a b : BitVec 32) : hot a b = if a = b then 1 else 0 := by
  unfold hot
  by_cases h : a = b
  · rw [cmpi_eq_one h, if_pos h]
    have e : ((1#1 : BitVec 1).setWidth 32).toInt = 1 := by decide
    rw [e]; simp
  · rw [cmpi_eq_zero h, if_neg h]
    have e : ((0#1 : BitVec 1).setWidth 32).toInt = 0 := by decide
    rw [e]; simp

/-! ## Quotient and remainder by 128 of a non-negative word -/

/-- A word that is non-negative read signed is below 2³¹ read unsigned. -/
theorem toNat_lt_of_nonneg {w : BitVec 32} (hw : 0 ≤ w.toInt) : w.toNat < 2 ^ 31 := by
  have := w.isLt
  unfold BitVec.toInt at hw
  split at hw <;> omega

/-- The arithmetic shift right by 7 of a non-negative word is its value's quotient by 128. -/
theorem toNat_shrsi7 {w : BitVec 32} (hw : 0 ≤ w.toInt) : (IntOp.shrsi .vector w 7#32).toNat = w.toNat / 128 := by
  have hlt := toNat_lt_of_nonneg hw
  have hmsb : w.msb = false := by
    rw [BitVec.msb_eq_false_iff_two_mul_lt]; omega
  unfold IntOp.shrsi
  rw [if_pos (by decide)]
  show (w.sshiftRight (7#32).toNat).toNat = _
  rw [BitVec.sshiftRight_eq_of_msb_false hmsb, BitVec.toNat_ushiftRight, Nat.shiftRight_eq_div_pow]
  rfl

/-- The low seven bits of a word are its value's remainder by 128. -/
theorem toNat_andi127 (w : BitVec 32) : (IntOp.andi w 127#32).toNat = w.toNat % 128 := by
  unfold IntOp.andi
  rw [BitVec.toNat_and]
  exact Nat.and_two_pow_sub_one_eq_mod w.toNat 7

/-- THE SPLIT: quotient `h` and remainder `l` by 128 name the id `128 h + l`. -/
theorem split_iff {w : BitVec 32} (hw : 0 ≤ w.toInt) (h l : ℕ) (hh : h < 2 ^ 24) (hl : l < 128) :
    (IntOp.shrsi .vector w 7#32 = BitVec.ofNat 32 h ∧ IntOp.andi w 127#32 = BitVec.ofNat 32 l)
      ↔ w.toInt = ((128 * h + l : ℕ) : ℤ) := by
  have hlt := toNat_lt_of_nonneg hw
  have hint : w.toInt = w.toNat := StableHlo.Predicate.toInt_eq_toNat_of_lt hlt
  rw [← BitVec.toNat_inj, ← BitVec.toNat_inj, toNat_shrsi7 hw, toNat_andi127, BitVec.toNat_ofNat, BitVec.toNat_ofNat, hint,
    Nat.mod_eq_of_lt (show h < 2 ^ 32 by omega), Nat.mod_eq_of_lt (show l < 2 ^ 32 by omega)]
  omega

/-- The product of the two factors the kernel multiplies: the high-bucket test times the low-bucket test. -/
def cell (w : BitVec 32) (h l : ℕ) : EReal :=
  hot (IntOp.shrsi .vector w 7#32) (BitVec.ofNat 32 h) * hot (IntOp.andi w 127#32) (BitVec.ofNat 32 l)

/-- For a non-negative id it is the one-hot factor of the id at bucket `128 h + l`. -/
theorem cell_eq {w : BitVec 32} (hw : 0 ≤ w.toInt) (h l : ℕ) (hh : h < 2 ^ 24) (hl : l < 128) :
    cell w h l = if w.toInt = ((128 * h + l : ℕ) : ℤ) then 1 else 0 := by
  have key := split_iff hw h l hh hl
  unfold cell
  rw [hot_eq, hot_eq]
  by_cases c : w.toInt = ((128 * h + l : ℕ) : ℤ)
  · obtain ⟨c1, c2⟩ := key.mpr c
    rw [if_pos c1, if_pos c2, if_pos c, one_mul]
  · rw [if_neg c]
    rcases not_and_or.mp (mt key.mp c) with c1 | c2
    · rw [if_neg c1, zero_mul]
    · rw [if_neg c2, mul_zero]

/-! ## A row of ids, read at natural-number positions -/

/-- The `[1024, 2048]` array of ids read at a row and a column given as naturals (the zero word outside the array:
    never read there). -/
def idAt (x : (⟨2, ![1024, 2048]⟩ : Shape).Idx → BitVec 32) (i j : ℕ) : BitVec 32 :=
  if h : i < 1024 ∧ j < 2048 then x (ix2 ⟨i, h.1⟩ ⟨j, h.2⟩) else 0#32

theorem idAt_eq (x : (⟨2, ![1024, 2048]⟩ : Shape).Idx → BitVec 32) (i : Fin 1024) (j : Fin 2048) :
    idAt x i.val j.val = x (ix2 i j) := by
  unfold idAt
  rw [dif_pos ⟨i.isLt, j.isLt⟩]

/-- Chunks of 128 consecutive terms, `n` of them, are the first `128 n` terms. -/
theorem sum_chunks (f : ℕ → EReal) (n : ℕ) :
    ∑ k ∈ Finset.range n, ∑ s ∈ Finset.range 128, f (128 * k + s) = ∑ i ∈ Finset.range (128 * n), f i := by
  induction n with
  | zero => simp
  | succ n ih => rw [Finset.sum_range_succ, ih, Nat.mul_succ, Finset.sum_range_add]

/-- THE COUNT: the histogram of row `r` at bucket `v`, the number of positions whose id, read signed, is `v`. -/
def count (x : (⟨2, ![1024, 2048]⟩ : Shape).Idx → BitVec 32) (r : Fin 1024) (v : ℕ) : EReal :=
  ∑ s : Fin 2048, if (x (ix2 r s)).toInt = (v : ℤ) then 1 else 0

/-- The products over the first `n + 1` chunks of row `R`, at high bucket `h` and low bucket `l`. -/
def partSum (x : (⟨2, ![1024, 2048]⟩ : Shape).Idx → BitVec 32) (R n h l : ℕ) : EReal :=
  ∑ k ∈ Finset.range (n + 1), ∑ s ∈ Finset.range 128, cell (idAt x R (128 * k + s)) h l

/-- Sixteen chunk sums of the products over a row of non-negative ids are the count at bucket `128 h + l`. -/
theorem partSum_eq_count (x : (⟨2, ![1024, 2048]⟩ : Shape).Idx → BitVec 32) (hx : ∀ i, 0 ≤ (x i).toInt)
    (r : Fin 1024) (h l : ℕ) (hh : h < 2 ^ 24) (hl : l < 128) :
    partSum x r.val 15 h l = count x r (128 * h + l) := by
  unfold partSum
  rw [sum_chunks (fun j => cell (idAt x r.val j) h l) 16]
  unfold count
  rw [← Fin.sum_univ_eq_sum_range (fun j => cell (idAt x r.val j) h l) (128 * 16)]
  refine Finset.sum_congr rfl fun s _ => ?_
  rw [idAt_eq x r s, cell_eq (hx _) h l hh hl]

end Cert.Hist

end
-- ==== Proof.KernelBlock.lean ====
/-
  What one grid point of the histogram kernel leaves in its output block.

  The body holds a `[64, 128]` block `x` of ids and the `[64, 251, 128]` accumulator block. It forms two one-hot
  arrays, `[r, s, h] ↦ (x[r, s] >> 7 = h)` and `[r, s, l] ↦ (x[r, s] & 127 = l)`, as 0/1 numbers, contracts them over the
  position `s` (a batched product, batch axis `r`) and adds the result to the accumulator. At the first chunk of a row
  tile the accumulator is first set to zero. So the block ends at
    `acc[r, h, l] + ∑ₛ (x[r, s] >> 7 = h) · (x[r, s] & 127 = l)`,
  with `acc = 0` at the first chunk.
-/
import proofs.«401665_j16475494548017_3_alg».proof.Proof.Gen.KernelIdeal.Frame
import proofs.«401665_j16475494548017_3_alg».proof.Proof.HistSpec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HistBlock

open Cert.KernelIdeal Cert.KernelIdeal.Gen
open Idealize.ShloMosaic Idealize.ShloMosaic.TcCoe Idealize.SL.Sem Idealize.ShloMosaic.ValueIdx

/-! ## The two control cases, for any float instance -/

section Cases
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later chunk: the block holding `xo` ends at the update of `xo` by the ids `x`. -/
theorem out_B (c : Dev nD) (i : grid0.Coords) (a2 : Memref sig .tc .vmem S64x128 .i32) (h2 : a2.IsWhole)
    (a3 : Memref sig .tc .vmem S64x251x128 .f32) (h3 : a3.IsWhole) (hc : ¬cond0_0 i)
    (x : Vec F S64x128 .i32) (xo : Vec F S64x251x128 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  sl_unfold_words
  rw [View.canon_unit_zero hz3]
  simp only [View.readAt_eq_ld, h2.read_unread, h3.read_unread, View.ld_unit_zero (S := S64x128) hz2,
    View.ld_unit_zero (S := S64x251x128) hz3]

/-- The first chunk of a row tile: the block is zeroed, read back, and ends at the update of the zero block. -/
theorem out_A (c : Dev nD) (i : grid0.Coords) (a2 : Memref sig .tc .vmem S64x128 .i32) (h2 : a2.IsWhole)
    (a3 : Memref sig .tc .vmem S64x251x128 .f32) (h3 : a3.IsWhole) (hc : cond0_0 i)
    (x : Vec F S64x128 .i32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S64x251x128) hz3, View.readCov_unit_zero (S := S64x251x128) _ hz3]
  simp only [View.readAt_eq_ld, h2.read_unread, View.ld_unit_zero (S := S64x128) hz2,
    View.ld_unit_zero (S := S64x251x128) hz3]

end Cases

/-! ## The batched product at an index -/

theorem lhs_0 (i : S64x251x128.Idx) (q : dot_S64x128x251_S64x128x128_S64x251x128_1_1_2_2_0_0.contr.Idx) :
    (dot_S64x128x251_S64x128x128_S64x251x128_1_1_2_2_0_0.lhsIdx i q 0).val = (i 0).val := by
  unfold DotDims.lhsIdx
  rw [dif_pos (show (0 : Fin S64x128x251.rank) ∈ dot_S64x128x251_S64x128x128_S64x251x128_1_1_2_2_0_0.lhsBatch by decide)]
  rfl
theorem lhs_1 (i : S64x251x128.Idx) (q : dot_S64x128x251_S64x128x128_S64x251x128_1_1_2_2_0_0.contr.Idx) :
    (dot_S64x128x251_S64x128x128_S64x251x128_1_1_2_2_0_0.lhsIdx i q 1).val = (q ⟨0, by decide⟩).val :=
  dot_S64x128x251_S64x128x128_S64x251x128_1_1_2_2_0_0.lhsIdx_val_of_single rfl i q
theorem lhs_2 (i : S64x251x128.Idx) (q : dot_S64x128x251_S64x128x128_S64x251x128_1_1_2_2_0_0.contr.Idx) :
    (dot_S64x128x251_S64x128x128_S64x251x128_1_1_2_2_0_0.lhsIdx i q 2).val = (i 1).val := by
  unfold DotDims.lhsIdx
  rw [dif_neg (show ¬(2 : Fin S64x128x251.rank) ∈ dot_S64x128x251_S64x128x128_S64x251x128_1_1_2_2_0_0.lhsBatch by decide),
    dif_pos (show (2 : Fin S64x128x251.rank) ∈ dot_S64x128x251_S64x128x128_S64x251x128_1_1_2_2_0_0.lhsNonContracting by decide)]
  rfl
theorem rhs_0 (i : S64x251x128.Idx) (q : dot_S64x128x251_S64x128x128_S64x251x128_1_1_2_2_0_0.contr.Idx) :
    (dot_S64x128x251_S64x128x128_S64x251x128_1_1_2_2_0_0.rhsIdx i q 0).val = (i 0).val := by
  unfold DotDims.rhsIdx
  rw [dif_pos (show (0 : Fin S64x128x128.rank) ∈ dot_S64x128x251_S64x128x128_S64x251x128_1_1_2_2_0_0.rhsBatch by decide)]
  rfl
theorem rhs_1 (i : S64x251x128.Idx) (q : dot_S64x128x251_S64x128x128_S64x251x128_1_1_2_2_0_0.contr.Idx) :
    (dot_S64x128x251_S64x128x128_S64x251x128_1_1_2_2_0_0.rhsIdx i q 1).val = (q ⟨0, by decide⟩).val :=
  dot_S64x128x251_S64x128x128_S64x251x128_1_1_2_2_0_0.rhsIdx_val_of_single rfl i q
theorem rhs_2 (i : S64x251x128.Idx) (q : dot_S64x128x251_S64x128x128_S64x251x128_1_1_2_2_0_0.contr.Idx) :
    (dot_S64x128x251_S64x128x128_S64x251x128_1_1_2_2_0_0.rhsIdx i q 2).val = (i 2).val := by
  unfold DotDims.rhsIdx
  rw [dif_neg (show ¬(2 : Fin S64x128x128.rank) ∈ dot_S64x128x251_S64x128x128_S64x251x128_1_1_2_2_0_0.rhsBatch by decide),
    dif_pos (show (2 : Fin S64x128x128.rank) ∈ dot_S64x128x251_S64x128x128_S64x251x128_1_1_2_2_0_0.rhsNonContracting by decide)]
  rfl

/-- The product of `L [r, s, h]` and `R [r, s, l]` contracted over `s`, batched over `r`, into the zero block. -/
theorem product_apply (L : FVec Ideal S64x128x251 .bf16) (R : FVec Ideal S64x128x128 .bf16)
    (r : Fin 64) (h : Fin 251) (l : Fin 128) :
    FloatOps.matmul dot_S64x128x251_S64x128x128_S64x251x128_1_1_2_2_0_0 none L R
        (constant S64x251x128 .f32 0x00000000#32) (ix3 r h l)
      = ∑ s : Fin 128, L (ix3 r s h) * R (ix3 r s l) := by
  rw [Ideal.matmul_constant_zero_apply,
    ← Equiv.sum_comp (contrEquiv1 dot_S64x128x251_S64x128x128_S64x251x128_1_1_2_2_0_0 128 rfl rfl).symm]
  refine Finset.sum_congr rfl fun s _ => ?_
  have hk := contrEquiv1_symm_val dot_S64x128x251_S64x128x128_S64x251x128_1_1_2_2_0_0 128 rfl rfl s
  have el : dot_S64x128x251_S64x128x128_S64x251x128_1_1_2_2_0_0.lhsIdx (ix3 r h l)
      ((contrEquiv1 dot_S64x128x251_S64x128x128_S64x251x128_1_1_2_2_0_0 128 rfl rfl).symm s) = ix3 r s h :=
    funext fun a => Fin.ext (by
      match a with
      | ⟨0, _⟩ => exact lhs_0 _ _
      | ⟨1, _⟩ => exact (lhs_1 _ _).trans hk
      | ⟨2, _⟩ => exact lhs_2 _ _)
  have er : dot_S64x128x251_S64x128x128_S64x251x128_1_1_2_2_0_0.rhsIdx (ix3 r h l)
      ((contrEquiv1 dot_S64x128x251_S64x128x128_S64x251x128_1_1_2_2_0_0 128 rfl rfl).symm s) = ix3 r s l :=
    funext fun a => Fin.ext (by
      match a with
      | ⟨0, _⟩ => exact rhs_0 _ _
      | ⟨1, _⟩ => exact (rhs_1 _ _).trans hk
      | ⟨2, _⟩ => exact rhs_2 _ _)
  rw [el, er]

/-! ## The one-hot arrays at an index -/

/-- A `[64, 128]` array made a column `[64, 128, 1]` and laid along `K` buckets reads, at `(r, s, k)`, the array at
    `(r, s)`. -/
theorem column_apply {K : ℕ} (g : IVec S64x128 32) (hc : S64x128.ShapeCasts S64x128x1)
    (hb : S64x128x1.Broadcasts ⟨3, ![64, 128, K]⟩) (r : Fin 64) (s : Fin 128) (k : Fin K) :
    broadcastTo ⟨3, ![64, 128, K]⟩ (shapeCast S64x128x1 g hc) hb (ix3 r s k) = g (ix2 r s) := by
  rw [broadcastTo_apply _ hb (ix3 r s k) (ix3 r s (0 : Fin 1)) (fun a => by
    match a with
    | ⟨0, _⟩ => show r.val = if (64 : ℕ) = 1 then 0 else r.val; rw [if_neg (by decide)]
    | ⟨1, _⟩ => show s.val = if (128 : ℕ) = 1 then 0 else s.val; rw [if_neg (by decide)]
    | ⟨2, _⟩ => show 0 = if (1 : ℕ) = 1 then 0 else k.val; rw [if_pos rfl])]
  exact shapeCast_apply g hc _ (ix2 r s) (by
    rw [Shape.rowMajor_val_two, Shape.rowMajor_val_three]
    show r.val * 128 + s.val = (r.val * 128 + s.val) * 1 + 0
    omega)

/-- The bucket numbers `0 … K - 1` along the last axis, laid over rows and positions, read `k` at `(r, s, k)`. -/
theorem buckets_apply {K : ℕ} (hi : (⟨3, ![1, 1, K]⟩ : Shape).Iotas .tc 32 [2])
    (hb : (⟨3, ![1, 1, K]⟩ : Shape).Broadcasts ⟨3, ![64, 128, K]⟩) (hK : K ≠ 1) (r : Fin 64) (s : Fin 128) (k : Fin K) :
    broadcastTo ⟨3, ![64, 128, K]⟩ (iota .tc ⟨3, ![1, 1, K]⟩ 32 [2] hi) hb (ix3 r s k) = BitVec.ofNat 32 k.val := by
  rw [broadcastTo_apply _ hb (ix3 r s k) (ix3 (0 : Fin 1) (0 : Fin 1) k) (fun a => by
    match a with
    | ⟨0, _⟩ => show 0 = if (1 : ℕ) = 1 then 0 else r.val; rw [if_pos rfl]
    | ⟨1, _⟩ => show 0 = if (1 : ℕ) = 1 then 0 else s.val; rw [if_pos rfl]
    | ⟨2, _⟩ => show k.val = if K = 1 then 0 else k.val; rw [if_neg hK])]
  show BitVec.ofNat 32 (0 * K + k.val) = _
  rw [Nat.zero_mul, Nat.zero_add]

/-! ## The update at an index, over the extended reals -/

/-- The block after the update: the accumulator plus, over the 128 positions of the chunk, the product of the two
    one-hot factors of the id at `(r, s)`. -/
theorem update_apply (x : Vec Ideal S64x128 .i32) (acc : Vec Ideal S64x251x128 .f32)
    (r : Fin 64) (h : Fin 251) (l : Fin 128) :
    k0_pay2 (F := Ideal) x acc (ix3 r h l) = acc (ix3 r h l) + ∑ s : Fin 128, Cert.Hist.cell (x (ix2 r s)) h.val l.val := by
  unfold k0_pay2
  refine (addf_apply _ _ _).trans ?_
  refine congrArg₂ (· + ·) (congrFun (shapeCast_self acc _) _) ?_
  refine (product_apply _ _ r h l).trans ?_
  refine Finset.sum_congr rfl fun s _ => ?_
  unfold Cert.Hist.cell Cert.Hist.hot
  refine congrArg₂ (· * ·) ?_ ?_
  · show ((((IntOp.cmpi .eq (broadcastTo S64x128x251 _ _ (ix3 r s h)) (broadcastTo S64x128x251 _ _ (ix3 r s h))).setWidth 32).toInt : ℝ) : EReal) = _
    rw [column_apply, buckets_apply _ _ (by decide)]
    rfl
  · show ((((IntOp.cmpi .eq (broadcastTo S64x128x128 _ _ (ix3 r s l)) (broadcastTo S64x128x128 _ _ (ix3 r s l))).setWidth 32).toInt : ℝ) : EReal) = _
    rw [column_apply, buckets_apply _ _ (by decide)]
    rfl

/-- The zero block the first chunk stores reads 0 everywhere. -/
theorem zero_apply (j : S64x251x128.Idx) : k0_pay1 (F := Ideal) j = 0 := by
  show Ideal.ofBits .f32 0x00000000#32 = 0
  exact Ideal.ofBits_zero_f32

end Cert.KernelIdeal.HistBlock

end
-- ==== Proof.KernelValue.lean ====
/-
  What the histogram kernel's result array holds after the run, over the extended reals.

  The grid is 16 row tiles by 16 chunks, point `t` being tile `t / 16`, chunk `t % 16`. Its input block is rows
  `64 (t / 16) …`, columns `128 (t % 16) …` of the ids; its output block is rows `64 (t / 16) …` of the `[1024, 251, 128]`
  result, the same block for the sixteen chunks of a tile, written back after the last one. After chunk `k` of a tile
  the block holds, at `(r, h, l)`, the sum over chunks `0 … k` of the chunk's 128 products: by induction on the point,
  the first chunk starting from the zero block. So the result array holds at `(R, h, l)` the sum over all sixteen chunks
  of row `R`, and @main's final reshape to `[1024, 32128]` reads it at `(R, v / 128, v % 128)`.
-/
import proofs.«401665_j16475494548017_3_alg».proof.Proof.KernelBlock
import Idealize.ShloMosaic.Lib.Pipeline.Value
import Idealize.ShloMosaic.Lib.StableHlo.Run

set_option maxRecDepth 16384

noncomputable section

open scoped BigOperators

namespace Cert.KernelIdeal.HistValue

open Cert.KernelIdeal Cert.KernelIdeal.Gen Cert.KernelIdeal.HistBlock
open Idealize.ShloMosaic Idealize.ShloMosaic.TcCoe Idealize.SL.Sem Idealize.ShloMosaic.ValueIdx
open Idealize.ShloMosaic.Pipeline (Dat)
open Cert.Hist (cell idAt partSum)

variable (m : (ℓ : Loc nD τ sig) → Buf (Elt Ideal) ℓ) (ρ : Dev nD → PrngReg)

/-- The ids as the region finds them, and the block of them point `t` is given. -/
abbrev ids (c : Dev nD) : IVec S1024x2048 32 := V m c main_arg0
abbrev blk (c : Dev nD) (t : Fin cfg0.N) : IVec S64x128 32 := iblk m c 0 t

/-- The printed index maps over the grid: the input block moves with (tile, chunk), the output block with the tile. -/
theorem idx_in : ∀ t : Fin cfg0.N, win0_0.index t (0 : Fin 2) = t.val / 16 ∧ win0_0.index t (1 : Fin 2) = t.val % 16 :=
  (by decide +kernel : ∀ t : Fin grid0.N, _)
theorem idx_out : ∀ t : Fin cfg0.N, win0_1.index t (0 : Fin 3) = t.val / 16 ∧ win0_1.index t (1 : Fin 3) = 0
    ∧ win0_1.index t (2 : Fin 3) = 0 :=
  (by decide +kernel : ∀ t : Fin grid0.N, _)

/-- Point `t`'s input block at `(r, s)` is the id at row `64 (t / 16) + r`, column `128 (t % 16) + s`. -/
theorem blk_apply (c : Dev nD) (t : Fin cfg0.N) (r : Fin 64) (s : Fin 128) :
    blk m c t (ix2 r s) = idAt (ids m c) (64 * (t.val / 16) + r.val) (128 * (t.val % 16) + s.val) := by
  have hN : t.val < 256 := lt_of_lt_of_eq t.isLt (show cfg0.N = 256 from N_0)
  obtain ⟨e0, e1⟩ := idx_in t
  have hr := r.isLt
  have hs := s.isLt
  unfold Cert.Hist.idAt
  rw [dif_pos ⟨by omega, by omega⟩]
  show ((cfg0.win 0).blk t).view.read (Elt Ideal) (V m c main_arg0) (ix2 r s) = _
  rw [View.read_apply]
  refine congrArg (V m c main_arg0) (funext fun a => Fin.ext ?_)
  match a with
  | ⟨0, _⟩ => show win0_0.index t (0 : Fin 2) * 64 + 1 * r.val = 64 * (t.val / 16) + r.val; omega
  | ⟨1, _⟩ => show win0_0.index t (1 : Fin 2) * 128 + 1 * s.val = 128 * (t.val % 16) + s.val; omega

/-- The 128 products of point `t`'s chunk, as a sum over positions given as naturals. -/
theorem chunk_sum (c : Dev nD) (t : Fin cfg0.N) (r : Fin 64) (h l : ℕ) :
    ∑ s : Fin 128, cell (blk m c t (ix2 r s)) h l
      = ∑ s ∈ Finset.range 128, cell (idAt (ids m c) (64 * (t.val / 16) + r.val) (128 * (t.val % 16) + s)) h l := by
  rw [← Fin.sum_univ_eq_sum_range
    (fun s => cell (idAt (ids m c) (64 * (t.val / 16) + r.val) (128 * (t.val % 16) + s)) h l) 128]
  exact Finset.sum_congr rfl fun s _ => by rw [blk_apply]

/-- A first chunk leaves its own products. -/
theorem first_chunk (c : Dev nD) (t : Fin cfg0.N) (h0 : t.val % 16 = 0) (r : Fin 64) (h : Fin 251) (l : Fin 128) :
    outsAt0 m c t.val t.isLt (ix3 r h l) = ∑ s : Fin 128, cell (blk m c t (ix2 r s)) h.val l.val := by
  rw [outsAt0_A m c t h0, out_A]
  refine (update_apply (blk m c t) (k0_pay1 (F := Ideal)) r h l).trans ?_
  rw [zero_apply, zero_add]

/-- A later chunk adds its products to what the point before left. -/
theorem later_chunk (c : Dev nD) (t : Fin cfg0.N) (h0 : ¬t.val % 16 = 0) (r : Fin 64) (h : Fin 251) (l : Fin 128) :
    outsAt0 m c t.val t.isLt (ix3 r h l)
      = outsAt0 m c (t.val - 1) (Nat.lt_of_le_of_lt (Nat.sub_le _ _) t.isLt) (ix3 r h l)
        + ∑ s : Fin 128, cell (blk m c t (ix2 r s)) h.val l.val := by
  rw [outsAt0_B m c t h0, out_B]
  exact update_apply (blk m c t) (outsAt0 m c (t.val - 1) (Nat.lt_of_le_of_lt (Nat.sub_le _ _) t.isLt)) r h l

/-- THE RUNNING CONTENTS: after point `n` the block holds the products of chunks `0 … n % 16` of its tile's rows. -/
theorem outsAt_eq (c : Dev nD) : ∀ (n : ℕ) (hn : n < cfg0.N) (r : Fin 64) (h : Fin 251) (l : Fin 128),
    outsAt0 m c n hn (ix3 r h l) = partSum (ids m c) (64 * (n / 16) + r.val) (n % 16) h.val l.val
  | 0, hn, r, h, l => by
    rw [first_chunk m c ⟨0, hn⟩ rfl r h l, chunk_sum]
    unfold Cert.Hist.partSum
    show _ = ∑ k ∈ Finset.range (0 + 1), _
    rw [Finset.sum_range_one]
    rfl
  | n + 1, hn, r, h, l => by
    by_cases h0 : (n + 1) % 16 = 0
    · rw [first_chunk m c ⟨n + 1, hn⟩ h0 r h l, chunk_sum]
      unfold Cert.Hist.partSum
      show ∑ s ∈ Finset.range 128, cell (idAt (ids m c) (64 * ((n + 1) / 16) + r.val) (128 * ((n + 1) % 16) + s)) h.val l.val = _
      rw [h0, Finset.sum_range_one]
    · rw [later_chunk m c ⟨n + 1, hn⟩ h0 r h l, chunk_sum]
      show outsAt0 m c n _ (ix3 r h l)
        + ∑ s ∈ Finset.range 128, cell (idAt (ids m c) (64 * ((n + 1) / 16) + r.val) (128 * ((n + 1) % 16) + s)) h.val l.val = _
      rw [outsAt_eq c n _ r h l]
      have e1 : (n + 1) / 16 = n / 16 := by omega
      have e2 : (n + 1) % 16 = n % 16 + 1 := by omega
      unfold Cert.Hist.partSum
      rw [e1, e2, Finset.sum_range_succ (n := n % 16 + 1)]

/-- THE RESULT of the region: at `(R, h, l)` the products of all sixteen chunks of row `R`. -/
def hist3 (c : Dev nD) : Vec Ideal S1024x251x128 .f32 :=
  fun i => partSum (ids m c) (i 0).val 15 (i 1).val (i 2).val

/-- What a flushing point (the last chunk of a tile) writes back is its block of `hist3`. -/
theorem flushed_eq (c : Dev nD) (t : Fin cfg0.N) (hf : (cfg0.win 1).flush t = true) :
    (dats m 0 c).flushed 1 t = ((cfg0.win 1).blk t).view.read (Elt Ideal) (hist3 m c) := by
  have h15 : t.val % 16 = 15 := (flush0_1 t).mp hf
  obtain ⟨e0, e1, e2⟩ := idx_out t
  show (cfg0.win 1).cut (grid0.coords t) ((dats m 0 c).after 1 t) = _
  rw [after0_1]
  refine funext fun (j : S64x251x128.Idx) => ?_
  show outsAt0 m c t.val t.isLt j = hist3 m c (((cfg0.win 1).blk t).view.emb j)
  obtain ⟨r, h, l, rfl⟩ : ∃ (r : Fin 64) (h : Fin 251) (l : Fin 128), j = ix3 r h l := ⟨j 0, j 1, j 2, eq_ix3 j⟩
  rw [outsAt_eq m c t.val t.isLt r h l, h15]
  unfold hist3
  show _ = partSum (ids m c) (win0_1.index t (0 : Fin 3) * 64 + 1 * r.val) 15
    (win0_1.index t (1 : Fin 3) * 251 + 1 * h.val) (win0_1.index t (2 : Fin 3) * 128 + 1 * l.val)
  rw [e0, e1, e2]
  have a0 : t.val / 16 * 64 + 1 * r.val = 64 * (t.val / 16) + r.val := by omega
  have a1 : 0 * 251 + 1 * h.val = h.val := by omega
  have a2 : 0 * 128 + 1 * l.val = l.val := by omega
  rw [a0, a1, a2]

/-- An index of the result is in point `t`'s block iff each coordinate is in the block's range. -/
theorem mem_blk (t : Fin cfg0.N) (i : S1024x251x128.Idx) :
    i ∈ ((cfg0.win 1).blk t).view.set ↔ ∀ a : Fin 3, win0_1.index t a * S64x251x128.size a ≤ (i a).val
      ∧ (i a).val < win0_1.index t a * S64x251x128.size a + S64x251x128.size a := by
  show i ∈ ((View.whole main_v0).slice (win0_1.rect t)).set ↔ _
  rw [View.set_slice_whole, Rect.mem_set_unit]
  exact Iff.rfl

/-- Row `R` lies in the block the last chunk of tile `R / 64` writes back. -/
theorem cover (i : S1024x251x128.Idx) :
    ∃ t : Fin cfg0.N, (cfg0.win 1).flush t = true ∧ i ∈ ((cfg0.win 1).blk t).view.set := by
  have hi0 : (i 0).val < 1024 := (i 0).isLt
  have hi1 : (i 1).val < 251 := (i 1).isLt
  have hi2 : (i 2).val < 128 := (i 2).isLt
  have hN : cfg0.N = 256 := N_0
  let t : Fin cfg0.N := ⟨16 * ((i 0).val / 64) + 15, by omega⟩
  have htv : t.val = 16 * ((i 0).val / 64) + 15 := rfl
  obtain ⟨e0, e1, e2⟩ := idx_out t
  refine ⟨t, (flush0_1 t).mpr (by omega), ?_⟩
  rw [mem_blk]
  intro a
  match a with
  | ⟨0, _⟩ =>
    show win0_1.index t (0 : Fin 3) * 64 ≤ (i 0).val ∧ (i 0).val < win0_1.index t (0 : Fin 3) * 64 + 64
    omega
  | ⟨1, _⟩ =>
    show win0_1.index t (1 : Fin 3) * 251 ≤ (i 1).val ∧ (i 1).val < win0_1.index t (1 : Fin 3) * 251 + 251
    omega
  | ⟨2, _⟩ =>
    show win0_1.index t (2 : Fin 3) * 128 ≤ (i 2).val ∧ (i 2).val < win0_1.index t (2 : Fin 3) * 128 + 128
    omega

/-- So the region's result array ends at `hist3`. -/
theorem final (c : Dev nD) : (dats m 0 c).arrAt 1 cfg0.N = hist3 m c :=
  (dats m 0 c).arrAt_eq_of_cover 1 (hist3 m c) (flushed_eq m c) (cover)

/-- @main's result: the region's array reshaped to `[1024, 32128]`. -/
def result (c : Dev nD) : Buf (Elt Ideal) ((c.tc : Thread nD τ).loc main_v1) :=
  shapeCast S1024x32128 (hist3 m c) shapeCasts_S1024x251x128_S1024x32128

/-- The host reshape after the region reads the region's array. -/
theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  unfold result
  refine congrArg (fun a => shapeCast S1024x32128 a shapeCasts_S1024x251x128_S1024x32128) ?_
  exact (Pipeline.withArrays_arr spec0 launch0.win.arr_inj c _ _ 1).trans (final m c)

/-- The run, read: the result at `result`, the ids unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0) :=
  (θ_run defs _ _).mono (fun _ h c => ⟨((h c).2 main_v1 (by decide)).trans (tail_eq m c),
      ((h c).1 0).trans (((dats m 0 c).arrAt_in 0 rfl _).trans ((A_eq m c 0).trans (V_main_arg0 m c)))⟩)
    (run_main m ρ)

/-- The result at `(R, v)` is the region's array at `(R, v / 128, v % 128)`. -/
theorem result_apply (c : Dev nD) (R : Fin 1024) (v : Fin 32128) :
    result m c (ix2 R v) = partSum (ids m c) R.val 15 (v.val / 128) (v.val % 128) := by
  have hv := v.isLt
  unfold result
  rw [shapeCast_apply (hist3 m c) shapeCasts_S1024x251x128_S1024x32128 (ix2 R v)
    (ix3 R (⟨v.val / 128, by omega⟩ : Fin 251) (⟨v.val % 128, Nat.mod_lt _ (by decide)⟩ : Fin 128)) (by
      rw [Shape.rowMajor_val_two, Shape.rowMajor_val_three]
      show (R.val * 251 + v.val / 128) * 128 + v.val % 128 = R.val * 32128 + v.val
      omega)]
  rfl

end Cert.KernelIdeal.HistValue

end
-- ==== Proof.LibPairScatter.lean ====
/-
  An accumulating scatter of single elements into a matrix, read at one element of its result over the extended reals.

  The operand is `[B, V]`, the scatter indices `[N, S, 2]` and the updates `[N, S]`: update `(n, s)` is added into the
  operand's element whose row is the first and whose column is the second component of index vector `(n, s)`. Both
  components are read signed and not clamped, and an update whose pair falls outside `[0, B) × [0, V)` is dropped. So the
  result at `(b, v)` is the operand there plus the sum of the updates whose index pair is `(b, v)`.

  The dimension numbers are spelt field by field as a printed program's record is, so that record is one of these by `rfl`.
-/
import Idealize.ShloMosaic.PureOps.Ideal
import Idealize.ShloMosaic.Lib.ValueIdx

open scoped BigOperators

noncomputable section

namespace Idealize.ShloMosaic.PairScatter

open Idealize.ShloMosaic Idealize.ShloMosaic.ValueIdx

/-- The dimension numbers of an element scatter into a matrix: operand `[B, V]`, scatter indices `[N, S, 2]`,
    updates `[N, S]`; no window axis, both operand axes inserted, index component `c` naming operand axis `c`. -/
abbrev pairDims (B V N S : Nat)
    (wf : ScatterDims.WF ⟨2, ![B, V]⟩ ⟨3, ![N, S, 2]⟩ ⟨2, ![N, S]⟩ [] [0, 1] [0, 1] 2) :
    ScatterDims ⟨2, ![B, V]⟩ ⟨3, ![N, S, 2]⟩ ⟨2, ![N, S]⟩ where
  updateWindowDims := []
  insertedWindowDims := [0, 1]
  scatterDimsToOperandDims := [0, 1]
  indexVectorDim := 2
  wf := wf

variable {B V N S w : Nat} (wf : ScatterDims.WF ⟨2, ![B, V]⟩ ⟨3, ![N, S, 2]⟩ ⟨2, ![N, S]⟩ [] [0, 1] [0, 1] 2)
  (idx : IVec ⟨3, ![N, S, 2]⟩ w)

/-- On operand axis 0 update `(n, s)` starts at the signed value of component 0 of its index vector. -/
theorem start0 (n : Fin N) (s : Fin S) :
    (pairDims B V N S wf).start (ix2 n s) idx 0 = (idx (ix3 n s (0 : Fin 2))).toInt := by
  unfold ScatterDims.start
  rw [dif_pos (show (0 : Fin 2) ∈ (pairDims B V N S wf).scatterDimsToOperandDims from (by decide : (0 : Fin 2) ∈ ([0, 1] : List (Fin 2))))]
  have hsi : (pairDims B V N S wf).siIdx (ix2 n s) ⟨List.idxOf (0 : Fin 2) (pairDims B V N S wf).scatterDimsToOperandDims,
      List.idxOf_lt_length_iff.2 (by decide : (0 : Fin 2) ∈ ([0, 1] : List (Fin 2)))⟩ = ix3 n s (0 : Fin 2) := by
    funext a; refine Fin.ext ?_
    match a with
    | ⟨0, _⟩ => rfl
    | ⟨1, _⟩ => rfl
    | ⟨2, _⟩ => rfl
  rw [hsi]

/-- On operand axis 1 it starts at the signed value of component 1. -/
theorem start1 (n : Fin N) (s : Fin S) :
    (pairDims B V N S wf).start (ix2 n s) idx 1 = (idx (ix3 n s (1 : Fin 2))).toInt := by
  unfold ScatterDims.start
  rw [dif_pos (show (1 : Fin 2) ∈ (pairDims B V N S wf).scatterDimsToOperandDims from (by decide : (1 : Fin 2) ∈ ([0, 1] : List (Fin 2))))]
  have hsi : (pairDims B V N S wf).siIdx (ix2 n s) ⟨List.idxOf (1 : Fin 2) (pairDims B V N S wf).scatterDimsToOperandDims,
      List.idxOf_lt_length_iff.2 (by decide : (1 : Fin 2) ∈ ([0, 1] : List (Fin 2)))⟩ = ix3 n s (1 : Fin 2) := by
    funext a; refine Fin.ext ?_
    match a with
    | ⟨0, _⟩ => rfl
    | ⟨1, _⟩ => rfl
    | ⟨2, _⟩ => rfl
  rw [hsi]

/-- Both operand axes are inserted window axes: the window coordinate is `0` on each. -/
theorem window_zero (j : (⟨2, ![N, S]⟩ : Shape).Idx) (a : Fin 2) :
    (pairDims B V N S wf).window j a = 0 := by
  unfold ScatterDims.window
  have h : a ∉ (pairDims B V N S wf).sKept := (show a ∉ ([] : List (Fin 2)) from List.not_mem_nil)
  rw [dif_neg h]

/-- Update `(n, s)` lands at `(b, v)` exactly when its index pair, read signed, is `(b, v)`. -/
theorem resultIdx?_eq_some_iff (n : Fin N) (s : Fin S) (b : Fin B) (v : Fin V) :
    (pairDims B V N S wf).resultIdx? (ix2 n s) idx = some (ix2 b v)
      ↔ (idx (ix3 n s (0 : Fin 2))).toInt = (b.val : ℤ) ∧ (idx (ix3 n s (1 : Fin 2))).toInt = (v.val : ℤ) := by
  unfold ScatterDims.resultIdx?
  constructor
  · intro h
    split at h
    · rename_i hc
      have hf := Option.some.inj h
      have h0 := congrArg (fun f => (f 0).val) hf
      have h1 := congrArg (fun f => (f 1).val) hf
      have hc0 := (hc 0).1
      have hc1 := (hc 1).1
      rw [start0, window_zero] at hc0
      rw [start1, window_zero] at hc1
      simp only [start0, start1, window_zero] at h0 h1
      change ((idx (ix3 n s (0 : Fin 2))).toInt + ((0 : ℕ) : ℤ)).toNat = b.val at h0
      change ((idx (ix3 n s (1 : Fin 2))).toInt + ((0 : ℕ) : ℤ)).toNat = v.val at h1
      exact ⟨by omega, by omega⟩
    · exact absurd h (by simp)
  · rintro ⟨hb, hv⟩
    have hc : ∀ a, 0 ≤ (pairDims B V N S wf).start (ix2 n s) idx a + (pairDims B V N S wf).window (ix2 n s) a ∧
        (pairDims B V N S wf).start (ix2 n s) idx a + (pairDims B V N S wf).window (ix2 n s) a
          < (⟨2, ![B, V]⟩ : Shape).size a := by
      intro a
      match a with
      | ⟨0, _⟩ =>
        change 0 ≤ (pairDims B V N S wf).start (ix2 n s) idx 0 + ((pairDims B V N S wf).window (ix2 n s) 0 : ℕ) ∧
          (pairDims B V N S wf).start (ix2 n s) idx 0 + ((pairDims B V N S wf).window (ix2 n s) 0 : ℕ) < (B : ℤ)
        rw [start0, window_zero, hb]
        have := b.isLt
        omega
      | ⟨1, _⟩ =>
        change 0 ≤ (pairDims B V N S wf).start (ix2 n s) idx 1 + ((pairDims B V N S wf).window (ix2 n s) 1 : ℕ) ∧
          (pairDims B V N S wf).start (ix2 n s) idx 1 + ((pairDims B V N S wf).window (ix2 n s) 1 : ℕ) < (V : ℤ)
        rw [start1, window_zero, hv]
        have := v.isLt
        omega
    rw [dif_pos hc]
    congr 1
    funext a; refine Fin.ext ?_
    match a with
    | ⟨0, _⟩ =>
      change ((pairDims B V N S wf).start (ix2 n s) idx 0 + ((pairDims B V N S wf).window (ix2 n s) 0 : ℕ)).toNat = b.val
      rw [start0, window_zero, hb]; omega
    | ⟨1, _⟩ =>
      change ((pairDims B V N S wf).start (ix2 n s) idx 1 + ((pairDims B V N S wf).window (ix2 n s) 1 : ℕ)).toNat = v.val
      rw [start1, window_zero, hv]; omega

/-- The scatter-add read at `(b, v)`: the operand there plus every update whose index pair is `(b, v)`. -/
theorem pairScatterAdd_apply
    (x : (⟨2, ![B, V]⟩ : Shape).Idx → EReal) (upd : (⟨2, ![N, S]⟩ : Shape).Idx → EReal) (b : Fin B) (v : Fin V) :
    Ideal.hostScatterAdd (pairDims B V N S wf) x idx upd (ix2 b v)
      = x (ix2 b v) + ∑ n : Fin N, ∑ s : Fin S,
          if (idx (ix3 n s (0 : Fin 2))).toInt = (b.val : ℤ) ∧ (idx (ix3 n s (1 : Fin 2))).toInt = (v.val : ℤ)
            then upd (ix2 n s) else 0 := by
  unfold Ideal.hostScatterAdd
  congr 1
  rw [Finset.sum_filter]
  refine (sum_idx2 _).trans ?_
  refine Finset.sum_congr rfl fun n _ => Finset.sum_congr rfl fun s _ => ?_
  simp only [resultIdx?_eq_some_iff]

end Idealize.ShloMosaic.PairScatter

end
-- ==== Proof.LibIndexRange.lean ====
/-
  Two general facts a proof meets when an integer input indexes an array.

  Words: a 32-bit word `w` with `0 ≤ w` and `w < n` as signed comparisons (`n` below 2³¹) has a signed value in
  `[0, n)`; for such a word the signed test `w < 0` fails, `w ≤ n - 1` holds, and the value read signed and clamped
  into `[0, n - 1]` is the value itself.

  Conjunctions: a `reduce` by `and` of one-bit words, started at 1, over an operand that is 1 everywhere is 1 at every
  result index (the converse of "a conjunction that is 1 met only 1s").
-/
import Idealize.ShloMosaic.Lib.ReduceAll
import Idealize.ShloMosaic.Lib.StableHlo.Predicate

namespace Idealize.ShloMosaic.IndexRange

open Idealize.ShloMosaic Idealize.ShloMosaic.StableHlo.Predicate

/-! ## Words in a range -/

/-- The signed value of a word that passes `0 ≤ w` and `w < n`. -/
theorem toInt_mem_of_cmpi {w : BitVec 32} (n : Nat) (hn : n < 2 ^ 31)
    (h0 : IntOp.cmpi .sge w 0#32 = 1#1) (h1 : IntOp.cmpi .slt w (BitVec.ofNat 32 n) = 1#1) :
    0 ≤ w.toInt ∧ w.toInt < n := by
  unfold IntOp.cmpi at h0 h1
  rw [ofBool_eq_one_iff] at h0 h1
  simp only [BitVec.sle, BitVec.slt, decide_eq_true_eq] at h0 h1
  rw [toInt_ofNat_small n hn] at h1
  exact ⟨by simpa using h0, h1⟩

/-- A word with a non-negative signed value fails the signed test `w < 0`. -/
theorem slt_zero_eq_zero {w : BitVec 32} (h : 0 ≤ w.toInt) : IntOp.cmpi .slt w 0#32 = 0#1 := by
  unfold IntOp.cmpi
  have : w.slt 0#32 = false := by
    simp only [BitVec.slt, decide_eq_false_iff_not, not_lt]
    simpa using h
  rw [this]; rfl

/-- A word with a non-negative signed value passes the signed test `0 ≤ w`. -/
theorem sge_zero_eq_one {w : BitVec 32} (h : 0 ≤ w.toInt) : IntOp.cmpi .sge w 0#32 = 1#1 := by
  unfold IntOp.cmpi
  rw [ofBool_eq_one_iff]
  simp only [BitVec.sle, decide_eq_true_eq]
  simpa using h

/-- For such a word the select "`w + n` if `w < 0`, else `w`" (an index counted from the end made absolute) is `w`. -/
theorem select_wrap_eq {w : BitVec 32} (n : BitVec 32) (h : 0 ≤ w.toInt) :
    Scalar.select (IntOp.cmpi .slt w 0#32) (IntOp.addi w n) w = w := by
  rw [slt_zero_eq_zero h]
  exact if_neg (by decide)

/-- A word whose signed value is at most `k` passes the signed test `w ≤ k`. -/
theorem sle_eq_one {w : BitVec 32} (k : Nat) (hk : k < 2 ^ 31) (h : w.toInt ≤ k) :
    IntOp.cmpi .sle w (BitVec.ofNat 32 k) = 1#1 := by
  unfold IntOp.cmpi
  rw [ofBool_eq_one_iff]
  simp only [BitVec.sle, decide_eq_true_eq]
  rw [toInt_ofNat_small k hk]
  exact h

/-- Read signed and clamped into `[0, k]`, a word whose signed value lies there is its own value. -/
theorem clamp_toNat {w : BitVec 32} (k : Nat) (h0 : 0 ≤ w.toInt) (h1 : w.toInt ≤ k) :
    min w.toInt.toNat k = w.toInt.toNat := by
  omega

/-! ## A conjunction of ones -/

/-- A left fold by `and` from 1 over one-bit words that are all 1 is 1. -/
theorem foldl_andi_of_forall {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_of_forall f l fun n hn => h n (List.mem_cons_of_mem _ hn)

/-- A `reduce` by `and` from an initial 1 over an operand that is 1 everywhere is 1 at every result index. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_forall x _ fun n _ => hx n

end Idealize.ShloMosaic.IndexRange
-- ==== Proof.RefValue.lean ====
/-
  What the reference's scatter-add holds, over the extended reals.

  The reference adds 1.0 into a zero `[1024, 32128]` array at the index pairs `(row n, id x[n, s])`, one per position
  `(n, s)`. Both components pass through jnp's "count from the end if negative" select; the row number `n` is never
  negative, and an id that is non-negative is left as it is. The scatter then adds, at `(b, v)`, one for every position
  whose pair is `(b, v)`: the positions `s` of row `b` whose id is `v`. That is the count.
-/
import proofs.«401665_j16475494548017_3_alg».proof.Proof.Gen.ReferenceIdeal.Read
import proofs.«401665_j16475494548017_3_alg».proof.Proof.HistSpec
import proofs.«401665_j16475494548017_3_alg».proof.Proof.LibPairScatter
import proofs.«401665_j16475494548017_3_alg».proof.Proof.LibIndexRange
import Idealize.ShloMosaic.Lib.Pipeline.Value
import Idealize.ShloMosaic.Lib.IdealHost

noncomputable section

open scoped BigOperators

namespace Cert.ReferenceIdeal.HistRef

open Cert.ReferenceIdeal Cert.ReferenceIdeal.Gen Cert.ReferenceIdeal.Read
open Idealize.ShloMosaic Idealize.ShloMosaic.ValueIdx
open Idealize.ShloMosaic.StableHlo.Predicate (toInt_ofNat_small)

/-- Component 0 of the index pair at position `(n, s)` is the row number `n`. -/
theorem row_component (x0 : IVec S1024x2048 32) (n : Fin 1024) (s : Fin 2048) :
    val_main_v16 (F := Ideal) x0 (ix3 n s (0 : Fin 2)) = BitVec.ofNat 32 n.val := by
  have hn := n.isLt
  unfold val_main_v16
  rw [concatenate_pair_apply_left (s₁ := S1024x2048x1) (s₂ := S1024x2048x1) (2 : Fin 3) _ _ _ (ix3 n s (0 : Fin 2)) rfl (ix3 n s (0 : Fin 1)) (fun b => by
    match b with
    | ⟨0, _⟩ => rfl
    | ⟨1, _⟩ => rfl
    | ⟨2, _⟩ => rfl)]
  rw [val_main_v14_apply, val_main_v13_apply, val_main_v7_apply, val_main_v4_apply, val_main_v6_apply, val_main_v1_apply,
    val_main_v3_apply, val_main_v5_apply, val_main_v0_apply, val_main_c_apply, val_main_c_0_apply]
  show Scalar.select (IntOp.cmpi .slt (BitVec.ofNat 32 n.val) 0#32) (IntOp.addi (BitVec.ofNat 32 n.val) 1024#32)
    (BitVec.ofNat 32 n.val) = _
  exact IndexRange.select_wrap_eq _ (by rw [toInt_ofNat_small _ (by omega)]; omega)

/-- Component 1 is the id at `(n, s)`, when that id is non-negative. -/
theorem id_component (x0 : IVec S1024x2048 32) (hx : ∀ i, 0 ≤ (x0 i).toInt) (n : Fin 1024) (s : Fin 2048) :
    val_main_v16 (F := Ideal) x0 (ix3 n s (1 : Fin 2)) = x0 (ix2 n s) := by
  unfold val_main_v16
  rw [concatenate_pair_apply_right (s₁ := S1024x2048x1) (s₂ := S1024x2048x1) (2 : Fin 3) _ _ _ (ix3 n s (1 : Fin 2)) rfl rfl (ix3 n s (0 : Fin 1)) (fun b hb => by
    match b with
    | ⟨0, _⟩ => rfl
    | ⟨1, _⟩ => rfl
    | ⟨2, _⟩ => exact absurd rfl hb) rfl]
  rw [val_main_v15_apply, val_main_v12_apply, val_main_v9_apply, val_main_v11_apply, val_main_v8_apply, val_main_v10_apply,
    val_main_c_1_apply, val_main_c_2_apply]
  have e : idx_main_v15 (ix3 n s (0 : Fin 1)) = ix2 n s := funext fun a => Fin.ext (by
    match a with
    | ⟨0, _⟩ => rfl
    | ⟨1, _⟩ => rfl)
  rw [e]
  exact IndexRange.select_wrap_eq _ (hx _)

/-- Every update is the number one. -/
theorem update_one (j : S1024x2048.Idx) : val_main_v17 (F := Ideal) j = 1 := by
  rw [val_main_v17_apply, val_main_cst_3_apply]
  exact Ideal.ofBits_one_f32

/-- The operand is the number zero everywhere. -/
theorem operand_zero (j : S1024x32128.Idx) : val_main_v2 (F := Ideal) j = 0 := by
  rw [val_main_v2_apply, val_main_cst_apply]
  exact Ideal.ofBits_zero_f32

/-- THE REFERENCE at `(b, v)`: the number of positions of row `b` whose id is `v`. -/
theorem ref_apply (x0 : IVec S1024x2048 32) (hx : ∀ i, 0 ≤ (x0 i).toInt) (b : Fin 1024) (v : Fin 32128) :
    val_main_v18 (F := Ideal) x0 (ix2 b v) = Cert.Hist.count x0 b v.val := by
  unfold val_main_v18
  show Ideal.hostScatterAdd (PairScatter.pairDims 1024 32128 1024 2048
      scatter_S1024x32128_S1024x2048x2_S1024x2048_n_01_01_2_wf) (val_main_v2 (F := Ideal))
      (val_main_v16 (F := Ideal) x0) (val_main_v17 (F := Ideal)) (ix2 b v) = _
  rw [PairScatter.pairScatterAdd_apply, operand_zero, zero_add]
  simp only [row_component, id_component x0 hx, update_one]
  rw [Finset.sum_eq_single b]
  · unfold Cert.Hist.count
    refine Finset.sum_congr rfl fun s _ => ?_
    have hb : (BitVec.ofNat 32 b.val).toInt = (b.val : ℤ) := toInt_ofNat_small _ (by have := b.isLt; omega)
    simp only [hb, true_and]
  · intro n _ hne
    refine Finset.sum_eq_zero fun s _ => if_neg ?_
    rintro ⟨h1, -⟩
    rw [toInt_ofNat_small _ (by have := n.isLt; omega)] at h1
    exact hne (Fin.ext (by omega))
  · intro hb
    exact absurd (Finset.mem_univ b) hb

end Cert.ReferenceIdeal.HistRef

end
-- ==== Proof.PreRange.lean ====
/-
  The precondition read back: every token id lies in `[0, 32128)`.

  The printed predicate is the conjunction, over all `1024 × 2048` ids `w`, of the two signed tests `0 ≤ w` and
  `w < 32128`. A conjunction that is 1 met only 1s, and the two tests being 1 say that the signed value of `w` lies in
  the range.
-/
import proofs.«401665_j16475494548017_3_alg».proof.Defs
import proofs.«401665_j16475494548017_3_alg».proof.Proof.Gen.Pre_any_inputs
import proofs.«401665_j16475494548017_3_alg».proof.Proof.LibIndexRange
import Idealize.ShloMosaic.Lib.ReduceAll
import Idealize.ShloMosaic.Lib.ValueIdx

namespace Cert.Hist.Pre

open Idealize.ShloMosaic

instance : Subsingleton Cert.Pre_any_inputs.S_.Idx := ⟨fun a b => funext fun d => d.elim0⟩

/-- Under the precondition each id, read signed, is at least 0 and below 32128. -/
theorem ids_in_range {F : FTy → Type} [FloatOps F] (x : IVec Cert.Pre_any_inputs.S1024x2048 32)
    (h : Cert.Pre_any_inputs.fn (F := F) x = fun _ => 1#1) (i : Cert.Pre_any_inputs.S1024x2048.Idx) :
    0 ≤ (x i).toInt ∧ (x i).toInt < 32128 := by
  have e := congrFun h ValueIdx.ix0
  unfold Cert.Pre_any_inputs.fn at e
  dsimp only at e
  have hi := Host.reduce_andi_all _ _ _ _ _ e i
  change IntOp.andi (IntOp.cmpi .sge (x i) 0#32) (IntOp.cmpi .slt (x i) (BitVec.ofNat 32 32128)) = 1#1 at hi
  obtain ⟨h0, h1⟩ := IntOp.andi_eq_one.1 hi
  exact IndexRange.toInt_mem_of_cmpi 32128 (by decide) h0 h1

end Cert.Hist.Pre
-- ==== Proof.lean ====
/-
  A bag-of-words histogram, two ways, agree over the extended reals on token ids in `[0, 32128)`.

  THE KERNEL walks the `[1024, 2048]` ids in blocks of 64 rows by 128 positions. An id `w` is split as
  `w = 128 (w >> 7) + (w & 127)`; the block's two one-hot arrays `(w >> 7 = h)`, `h < 251`, and `(w & 127 = l)`,
  `l < 128`, are multiplied and summed over the positions, and the sixteen chunks of a row tile are accumulated in
  the tile's `[64, 251, 128]` output block. @main reshapes `[1024, 251, 128]` to `[1024, 32128]`, so bucket
  `v = 128 h + l` of row `R` holds `∑ₛ (x[R, s] >> 7 = v / 128) · (x[R, s] & 127 = v % 128)`.
  THE REFERENCE scatters 1.0 into a zero array at `(R, x[R, s])`, after jnp's wrap of negative indices; an update
  whose index leaves the array is dropped. Bucket `v` of row `R` holds the number of `s` with `x[R, s] = v`.
  For `x[R, s] ≥ 0` the product of the two tests is the test `x[R, s] = v`, and the wrap does nothing: the two
  results are the same count. (For a negative id they differ: the arithmetic shift keeps the sign, so the kernel counts
  it nowhere, while the reference counts `x + 32128`. Hence the precondition.)

  Modules: HistSpec (the arithmetic of the split and the count), KernelBlock (one grid point's block), KernelValue (the
  kernel's result array: induction over the grid, the write-backs, the reshape), LibPairScatter (a scatter-add of
  single elements read at an index), RefValue (the reference's result), LibIndexRange and PreRange (the precondition
  read back). The three frames are the generated ones; the ideal pass rewrote nothing.
-/
import proofs.«401665_j16475494548017_3_alg».proof.Defs
import proofs.«401665_j16475494548017_3_alg».proof.Proof.Gen.Kernel
import proofs.«401665_j16475494548017_3_alg».proof.Proof.Gen.Kernel.Skeleton
import proofs.«401665_j16475494548017_3_alg».proof.Proof.Gen.Kernel.Launch
import proofs.«401665_j16475494548017_3_alg».proof.Proof.Gen.Kernel.Points
import proofs.«401665_j16475494548017_3_alg».proof.Proof.Gen.Kernel.Frame
import proofs.«401665_j16475494548017_3_alg».proof.Proof.Gen.KernelIdeal
import proofs.«401665_j16475494548017_3_alg».proof.Proof.Gen.KernelIdeal.Skeleton
import proofs.«401665_j16475494548017_3_alg».proof.Proof.Gen.KernelIdeal.Launch
import proofs.«401665_j16475494548017_3_alg».proof.Proof.Gen.KernelIdeal.Points
import proofs.«401665_j16475494548017_3_alg».proof.Proof.Gen.KernelIdeal.Frame
import proofs.«401665_j16475494548017_3_alg».proof.Proof.Gen.ReferenceIdeal
import proofs.«401665_j16475494548017_3_alg».proof.Proof.Gen.ReferenceIdeal.Run
import proofs.«401665_j16475494548017_3_alg».proof.Proof.Gen.ReferenceIdeal.Read
import proofs.«401665_j16475494548017_3_alg».proof.Proof.Gen.Pre_any_inputs
import proofs.«401665_j16475494548017_3_alg».proof.Proof.KernelValue
import proofs.«401665_j16475494548017_3_alg».proof.Proof.RefValue
import proofs.«401665_j16475494548017_3_alg».proof.Proof.PreRange
import Idealize.ShloMosaic.Adequacy
import Idealize.ShloMosaic.Init

noncomputable section

namespace Cert.Proof

open Idealize.ShloMosaic Idealize.SL.Sem Idealize.ShloMosaic.ValueIdx

/-- The three programs run and leave the ids unchanged: the kernel and its idealization by the generated frames, the
    reference by its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both results are, at row `b` and bucket `v`, the number of positions of row `b` whose id is `v`: the kernel's by the
    split `v = 128 (v / 128) + v % 128` of the bucket, the reference's by its scatter, both for ids that are not negative. -/
theorem algebraic : Cert.algebraic_KernelIdeal_ReferenceIdeal := by
  intro m ρ m' ρ' hpre hagree
  refine ⟨fun c => Cert.KernelIdeal.HistValue.result m c, Cert.KernelIdeal.HistValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, hagree c]
  funext i
  obtain ⟨b, v, rfl⟩ : ∃ (b : Fin 1024) (v : Fin 32128), i = ix2 b v := ⟨i 0, i 1, eq_ix2 i⟩
  have hv := v.isLt
  have hx : ∀ j, 0 ≤ (m ((c.tc : Thread Cert.KernelIdeal.nD Cert.KernelIdeal.τ).loc Cert.KernelIdeal.main_arg0) j).toInt :=
    fun j => (Cert.Hist.Pre.ids_in_range _ (hpre c) j).1
  rw [Cert.ReferenceIdeal.HistRef.ref_apply _ hx b v]
  show _ = Cert.KernelIdeal.HistValue.result m c (ix2 b v)
  rw [Cert.KernelIdeal.HistValue.result_apply m c b v]
  show _ = Cert.Hist.partSum (m ((c.tc : Thread Cert.KernelIdeal.nD Cert.KernelIdeal.τ).loc Cert.KernelIdeal.main_arg0)) b.val 15
    (v.val / 128) (v.val % 128)
  rw [Cert.Hist.partSum_eq_count _ hx b (v.val / 128) (v.val % 128) (by omega) (Nat.mod_lt _ (by decide))]
  exact congrArg (Cert.Hist.count _ b) (by omega)

theorem claim : Cert.Claim :=
  ⟨Cert.Kernel.Gen.facts, Cert.KernelIdeal.Gen.facts, Cert.ReferenceIdeal.Gen.facts, Cert.Pre_any_inputs.Gen.facts,
    frame_k, frame_ki, frame_ri, preserves, algebraic⟩

end Cert.Proof

end
